-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S2x1600000 32) (main_arg2 : FVec F S128x64 .f32) (main_arg3 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000x64 : Shape := ⟨2, ![100000, 64]⟩
abbrev S5000x128 : Shape := ⟨2, ![5000, 128]⟩
abbrev S5000x64 : Shape := ⟨2, ![5000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S10000x64 : Shape := ⟨2, ![10000, 64]⟩

abbrev nBuf : Space → Nat
  | .hbm => 63
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000x64, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S5000x128_S128x64_S5000x64_1_0_0_1_n_n_wf : DotDims.WF S5000x128 S128x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000x64, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.MatmulRegion.lean ====
/-
  The first kernel region, read as a value at the exact instance.

  The region runs over twenty grid points. Point `t` stages rows `5000·t … 5000·t + 4999` of the node features
  (all 128 columns) and the whole 128 × 64 weight matrix, multiplies them on the matrix unit into a zero
  accumulator, and writes the 5000 × 64 block back to the same rows of the result. The two conversions to the
  narrower float format before the product are the identity on exact values, and a product into a zero accumulator
  is the plain sum over the contracted axis. The twenty row blocks tile the 100000 rows, so after the region

      h (r, j) = Σ_{k < 128} x (r, k) · w (k, j)

  whatever the two input arrays hold when the region is entered.
-/
import proofs.«169735_j59442347377115_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear

open Idealize.ShloMosaic Idealize.ShloMosaic.TcCoe Idealize.SL.Sem
open Idealize.ShloMosaic.Pipeline (Dat)
open Idealize.ShloMosaic.ValueIdx
open Cert.KernelIdeal Cert.KernelIdeal.Gen

/-- Rows of `x` times columns of `w`: each entry the sum over the 128 hidden columns. -/
def rowsTimes (x : FVec Ideal S100000x128 .f32) (w : FVec Ideal S128x64 .f32) : FVec Ideal S100000x64 .f32 :=
  fun i => ∑ k : Fin 128, x (ix2 (⟨(i 0).val, (i 0).isLt⟩ : Fin 100000) k) * w (ix2 k (⟨(i 1).val, (i 1).isLt⟩ : Fin 64))

theorem zeroOffsets : (![0, 0] : Fin 2 → Nat) = fun _ => 0 := funext fun a => by fin_cases a <;> rfl

/-! ## The block product at an index -/

/-- Where the left operand is read for output entry `i` and contracted position `q`: row of `i`. -/
theorem lhs_axis0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … column `q`. -/
theorem lhs_axis1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- Where the right operand is read: row `q`, -/
theorem rhs_axis0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … column of `i`. -/
theorem rhs_axis1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `(row of i, k)` of a staged block of `x`. -/
abbrev lrow (i : S5000x64.Idx) (k : Fin 128) : S5000x128.Idx := fun a => match a with
  | ⟨0, _⟩ => ⟨(i 0).val, (i 0).isLt⟩
  | ⟨1, _⟩ => ⟨k.val, k.isLt⟩
/-- Entry `(k, column of i)` of the staged weights. -/
abbrev rcol (i : S5000x64.Idx) (k : Fin 128) : S128x64.Idx := fun a => match a with
  | ⟨0, _⟩ => ⟨k.val, k.isLt⟩
  | ⟨1, _⟩ => ⟨(i 1).val, (i 1).isLt⟩

/-- The body's stored value at an entry of the block: the sum over the hidden axis of the staged row of `x` against
    the staged column of `w`. -/
theorem pay_at (x0 : Vec Ideal S5000x128 .f32) (x1 : Vec Ideal S128x64 .f32) (j : S5000x64.Idx) :
    k0_pay1 (F := Ideal) x0 x1 j = ∑ k : Fin 128, x0 (lrow j k) * x1 (rcol j k) := by
  unfold k0_pay1
  refine (Ideal.matmul_constant_zero_apply dot_S5000x128_S128x64_S5000x64_1_0_0_1_n_n none
    (truncf (F := Ideal) .bf16 x0 bitsLt_bf16_f32) (truncf (F := Ideal) .bf16 x1 bitsLt_bf16_f32) j).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx j ((contrEquiv1 dot_S5000x128_S128x64_S5000x64_1_0_0_1_n_n 128 rfl rfl).symm k) = lrow j k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx j ((contrEquiv1 dot_S5000x128_S128x64_S5000x64_1_0_0_1_n_n 128 rfl rfl).symm k) = rcol j k := funext fun a => Fin.ext (by
    match a with
    | ⟨0, _⟩ => exact (rhs_axis0 _ _).trans hk
    | ⟨1, _⟩ => exact rhs_axis1 _ _)
  show x0 (dot_S5000x128_S128x64_S5000x64_1_0_0_1_n_n.lhsIdx j ((contrEquiv1 dot_S5000x128_S128x64_S5000x64_1_0_0_1_n_n 128 rfl rfl).symm k)) * x1 (dot_S5000x128_S128x64_S5000x64_1_0_0_1_n_n.rhsIdx j ((contrEquiv1 dot_S5000x128_S128x64_S5000x64_1_0_0_1_n_n 128 rfl rfl).symm k)) = _
  rw [el, er]

/-! ## From blocks to the array -/

/-- The block index maps over the twenty points: the features' and the result's row blocks move together (block `t`
    at point `t`, the one column block), the weights stay on their only block. -/
theorem blockIndex : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The node features as the region finds them, at their literal type. -/
abbrev xArr (c : Dev nD) : FVec Ideal S100000x128 .f32 := V c main_arg0
/-- The weights as the region finds them, at their literal type. -/
abbrev wArr (c : Dev nD) : FVec Ideal S128x64 .f32 := V c main_arg2

/-- What grid point `t` writes back is rows `5000·t …` of `rowsTimes` of the two arrays the region finds. -/
theorem flushed_eq (c : Dev nD) (t : Fin cfg0.N) :
    (dat0 V c).flushed 2 t
      = ((cfg0.win 2).blk t).view.read (Elt Ideal) (rowsTimes (xArr V c) (wArr V c)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x64) zeroOffsets]
  obtain ⟨e0, e1, e2, e3, e4, e5⟩ := blockIndex t
  funext j
  show k0_pay1 (F := Ideal) (iblk0 V c 0 t) (iblk0 V c 1 t) j
    = rowsTimes (xArr V c) (wArr V c) (((cfg0.win 2).blk t).view.emb j)
  refine (pay_at (iblk0 V c 0 t) (iblk0 V c 1 t) j).trans ?_
  refine Finset.sum_congr rfl fun k _ => ?_
  show xArr V c (((cfg0.win 0).blk t).view.emb (lrow j k)) * wArr V c (((cfg0.win 1).blk t).view.emb (rcol j k))
    = xArr V c (ix2 (⟨((((cfg0.win 2).blk t).view.emb j) 0).val, ((((cfg0.win 2).blk t).view.emb j) 0).isLt⟩ : Fin 100000) k)
      * wArr V c (ix2 k (⟨((((cfg0.win 2).blk t).view.emb j) 1).val, ((((cfg0.win 2).blk t).view.emb j) 1).isLt⟩ : Fin 64))
  have h0 : ((cfg0.win 0).blk t).view.emb (lrow j k)
      = ix2 (⟨((((cfg0.win 2).blk t).view.emb j) 0).val, ((((cfg0.win 2).blk t).view.emb j) 0).isLt⟩ : Fin 100000) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (rcol j k)
      = ix2 k (⟨((((cfg0.win 2).blk t).view.emb j) 1).val, ((((cfg0.win 2).blk t).view.emb j) 1).isLt⟩ : Fin 64) := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]

/-- An entry of the result lies in point `t`'s block exactly when each coordinate lies in the block's range. -/
theorem mem_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- Every row block is some point's. -/
theorem blockOnto : ∀ q0 : Fin 20, ∃ t : Fin cfg0.N, win0_2.index t = ![q0.val, 0] :=
  (by decide +kernel : ∀ q0 : Fin 20, ∃ t : Fin grid0.N, win0_2.index t = ![q0.val, 0])

/-- The twenty row blocks tile the result: row `r` lies in block `r / 5000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := blockOnto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the result array is `rowsTimes` of the features and the weights as the region found them. -/
theorem result_eq (c : Dev nD) :
    (dat0 V c).arrAt 2 cfg0.N = rowsTimes (xArr V c) (wArr V c) :=
  (dat0 V c).arrAt_eq_of_cover 2 (rowsTimes (xArr V c) (wArr V c)) (fun t _ => flushed_eq V c t) covered

end Cert.KernelIdeal.Linear

end
-- ==== Proof.SigmoidRegion.lean ====
/-
  The second kernel region, read as a value at the exact instance.

  The region runs over ten grid points. Point `t` stages rows `10000·t … 10000·t + 9999` of the aggregated array
  (all 64 columns) and the one-row bias, adds the bias row to every staged row, applies the logistic function
  entry by entry, and writes the 10000 × 64 block back to the same rows of the result. The ten row blocks tile
  the 100000 rows, so after the region the result array is, entry by entry,

      out (r, j) = logistic (agg (r, j) + bias (0, j))

  whatever the two input arrays hold when the region is entered.
-/
import proofs.«169735_j59442347377115_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Epilogue

open Idealize.ShloMosaic Idealize.ShloMosaic.TcCoe Idealize.SL.Sem
open Idealize.ShloMosaic.Pipeline (Dat)
open Idealize.ShloMosaic.ValueIdx
open Cert.KernelIdeal Cert.KernelIdeal.Gen

/-- Bias added along the rows, then the logistic function, entry by entry. -/
def biasLogistic (A : FVec Ideal S100000x64 .f32) (b2 : FVec Ideal S1x64 .f32) : FVec Ideal S100000x64 .f32 :=
  fun i => FloatOps.logistic (F := Ideal) (φ := .f32) (FloatOps.addf (F := Ideal) (φ := .f32) (A i) (b2 (ix2 (0 : Fin 1) (⟨(i 1).val, (i 1).isLt⟩ : Fin 64))))

theorem zeroOffsets : (![0, 0] : Fin 2 → Nat) = fun _ => 0 := funext fun a => by fin_cases a <;> rfl

/-- The body's stored value at row `p`, column `q` of a block: the staged entry plus the bias row's entry of that
    column, through the logistic function. The two same-shape casts are identities; the row broadcast reads the one row. -/
theorem pay_at (x0 : Vec Ideal S10000x64 .f32) (x1 : Vec Ideal S1x64 .f32) (p : Fin 10000) (q : Fin 64) :
    k1_pay1 (F := Ideal) x0 x1 (ix2 p q) = FloatOps.logistic (F := Ideal) (φ := .f32) (FloatOps.addf (F := Ideal) (φ := .f32) (x0 (ix2 p q)) (x1 (ix2 (0 : Fin 1) q))) := by
  unfold k1_pay1
  show FloatOps.logistic (F := Ideal) (φ := .f32) (FloatOps.addf (F := Ideal) (φ := .f32) (shapeCast S10000x64 x0 shapeCasts_S10000x64_S10000x64 (ix2 p q))
    (broadcastTo S10000x64 (shapeCast S1x64 x1 shapeCasts_S1x64_S1x64) broadcasts_S1x64_S10000x64 (ix2 p q))) = _
  rw [shapeCast_self, shapeCast_self, broadcastTo_1b_ab_apply]

/-- The same at any index of the block. -/
theorem pay_eq (x0 : Vec Ideal S10000x64 .f32) (x1 : Vec Ideal S1x64 .f32) (j : S10000x64.Idx) :
    k1_pay1 (F := Ideal) x0 x1 j
      = FloatOps.logistic (F := Ideal) (φ := .f32) (FloatOps.addf (F := Ideal) (φ := .f32) (x0 j) (x1 (ix2 (0 : Fin 1) (⟨(j 1).val, (j 1).isLt⟩ : Fin 64)))) := by
  obtain ⟨p, q, rfl⟩ : ∃ (p : Fin 10000) (q : Fin 64), j = ix2 p q := ⟨j 0, j 1, eq_ix2 j⟩
  exact pay_at x0 x1 p q

/-- The block index maps over the ten points: the aggregated array's and the result's row blocks move together
    (block `t` at point `t`, the one column block), the bias window stays on its only block. -/
theorem blockIndex : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What grid point `t` writes back is rows `10000·t …` of `biasLogistic` of the two arrays the region finds. -/
theorem flushed_eq (c : Dev nD) (t : Fin cfg1.N) :
    (dat1 V c).flushed 2 t
      = ((cfg1.win 2).blk t).view.read (Elt Ideal) (biasLogistic (V c main_v43) (V c main_v44)) := by
  show (cfg1.win 2).cut (grid1.coords t) ((dat1 V c).after 2 t) = _
  rw [after1_2]
  unfold out1_2
  rw [View.canon_unit_zero zeroOffsets]
  simp only [View.ld_unit_zero (S := S10000x64) zeroOffsets, View.ld_unit_zero (S := S1x64) zeroOffsets]
  obtain ⟨e0, e1, e2, e3, e4, e5⟩ := blockIndex t
  funext j
  show k1_pay1 (F := Ideal) (iblk1 V c 0 t) (iblk1 V c 1 t) j
    = biasLogistic (V c main_v43) (V c main_v44) (((cfg1.win 2).blk t).view.emb j)
  refine (pay_eq (iblk1 V c 0 t) (iblk1 V c 1 t) j).trans ?_
  show FloatOps.logistic (F := Ideal) (φ := .f32) (FloatOps.addf (F := Ideal) (φ := .f32) (V c main_v43 (((cfg1.win 0).blk t).view.emb j))
      (V c main_v44 (((cfg1.win 1).blk t).view.emb (ix2 (0 : Fin 1) (⟨(j 1).val, (j 1).isLt⟩ : Fin 64)))))
    = FloatOps.logistic (F := Ideal) (φ := .f32) (FloatOps.addf (F := Ideal) (φ := .f32) (V c main_v43 (((cfg1.win 2).blk t).view.emb j))
      (V c main_v44 (ix2 (0 : Fin 1) (⟨((((cfg1.win 2).blk t).view.emb j) 1).val, ((((cfg1.win 2).blk t).view.emb j) 1).isLt⟩ : Fin 64))))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (0 : Fin 1) (⟨(j 1).val, (j 1).isLt⟩ : Fin 64))
      = ix2 (0 : Fin 1) (⟨((((cfg1.win 2).blk t).view.emb j) 1).val, ((((cfg1.win 2).blk t).view.emb j) 1).isLt⟩ : Fin 64) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]

/-- An entry of the result lies in point `t`'s block exactly when each coordinate lies in the block's range. -/
theorem mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- Every row block is some point's. -/
theorem blockOnto : ∀ q0 : Fin 10, ∃ t : Fin cfg1.N, win1_2.index t = ![q0.val, 0] :=
  (by decide +kernel : ∀ q0 : Fin 10, ∃ t : Fin grid1.N, win1_2.index t = ![q0.val, 0])

/-- The ten row blocks tile the result: row `r` lies in block `r / 10000`. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := blockOnto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region the result array is `biasLogistic` of the aggregated array and the bias row as the region
    found them. -/
theorem result_eq (c : Dev nD) :
    (dat1 V c).arrAt 2 cfg1.N = biasLogistic (V c main_v43) (V c main_v44) :=
  (dat1 V c).arrAt_eq_of_cover 2 (biasLogistic (V c main_v43) (V c main_v44)) (fun t _ => flushed_eq V c t) covered

end Cert.KernelIdeal.Epilogue

end
-- ==== Proof.HostGlue.lean ====
/-
  The host operations between the two kernel regions, carried as one function.

  Between the regions @main applies 57 host operations: it appends the self-loops to the edge list, counts the
  in-degrees by a scatter-add of ones, takes the inverse square roots where the degree is positive, gathers the two
  normalisation factors of every edge, gathers the transformed features of every source node, scales them, and
  scatter-adds the messages into their target rows; last it views the bias vector as one row. The reference applies
  the very same operations to its own matrix product. Nothing here opens them: whatever the buffers hold when the
  first region has ended, the aggregated array is the reference's aggregation stage, provided the first region's
  result is the reference's product stage and the edge list is the same; and the bias row is the bias vector recast.
  Stated for any float family, so that no operation is ever unfolded.
-/
import proofs.«169735_j59442347377115_1_alg».proof.Proof.Gen.KernelIdeal.Launch
import proofs.«169735_j59442347377115_1_alg».proof.Proof.RefRead
import Idealize.ShloMosaic.Lib.StableHlo.Run

set_option maxRecDepth 16384

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]

set_option maxHeartbeats 4000000 in
/-- The aggregated array after the three host stretches, from contents `W` in which the first region's result is the
    reference's product stage of `x0`, `x2` and the edge list is `x1`: the reference's aggregation stage of them. -/
theorem agg_chain (W : Valuation τ sig (Elt F))
    (x0 : (⟨Cert.ReferenceIdeal.S100000x128, .f32⟩ : BufTy).Contents (Elt F))
    (x1 : (⟨Cert.ReferenceIdeal.S2x1600000, .i32⟩ : BufTy).Contents (Elt F))
    (x2 : (⟨Cert.ReferenceIdeal.S128x64, .f32⟩ : BufTy).Contents (Elt F))
    (h0 : W (Proc.devRef .tc main_v0) = Cert.ReferenceIdeal.ReadP.val_main_v0 (F := F) x0 x2)
    (h1 : W (Proc.devRef .tc main_arg1) = x1) :
    StableHlo.after hostOps1_2 (StableHlo.after hostOps1_1 (StableHlo.after hostOps1 W)) (Proc.devRef .tc main_v43)
      = Cert.ReferenceIdeal.ReadP.val_main_v43 (F := F) x0 x1 x2 := by
  subst h1
  after_results_simp
  rw [h0]
  rfl

/-- The bias row after the three host stretches: the bias vector recast to one row. -/
theorem bias_chain (W : Valuation τ sig (Elt F)) :
    StableHlo.after hostOps1_2 (StableHlo.after hostOps1_1 (StableHlo.after hostOps1 W)) (Proc.devRef .tc main_v44)
      = shapeCast S1x64 (W (Proc.devRef .tc main_arg3) : (⟨S64, .f32⟩ : BufTy).Contents (Elt F)) shapeCasts_S64_S1x64 := by
  after_results_simp
  rfl

end Cert.KernelIdeal.Glue

end
-- ==== Proof.RefSide.lean ====
/-
  The reference's last stage, entry by entry.

  After its aggregation the reference adds the bias, broadcast over the rows, and applies the sigmoid spelt out
  on the host as negate, exponential, add one, divide into one: `1 / (1 + exp (-z))`. On the extended reals that expression IS the logistic function, at every
  value of `z` including the two infinities, so at entry `(r, j)` the reference's result is
  `logistic (agg (r, j) + bias j)`. The aggregation stage is never opened.
-/
import proofs.«169735_j59442347377115_1_alg».proof.Proof.RefRead
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem
open Idealize.ShloMosaic.ValueIdx
open Cert.ReferenceIdeal Cert.ReferenceIdeal.ReadP

/-- The float word of one denotes the real number one. -/
theorem one_word : Ideal.ofBits .f32 0x3F800000#32 = 1 := by
  simp [Ideal.ofBits, Ideal.ieee, -EReal.coe_mul]; norm_num

/-- The reference's result at an entry: the logistic function of its aggregation stage there plus the bias entry of
    the column. The two broadcasts of the bias read its entry of the column; the host's negate, exponential, add and
    divide over the word of one are the logistic function's own definition. -/
theorem out_at (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal)) (i : S100000x64.Idx) :
    val_main_v52 (F := Ideal) x0 x1 x2 x3 i
      = FloatOps.logistic (F := Ideal) (φ := .f32) (FloatOps.addf (F := Ideal) (φ := .f32)
          (val_main_v43 (F := Ideal) x0 x1 x2 i) (x3 (ix1 (⟨(i 1).val, (i 1).isLt⟩ : Fin 64)))) := by
  rw [val_main_v52_apply, val_main_v51_apply, val_main_cst_10_apply, val_main_v50_apply, val_main_v49_apply,
    val_main_cst_9_apply, val_main_v48_apply, val_main_v47_apply, val_main_v46_apply, val_main_v45_apply,
    val_main_v44_apply]
  have hb : idx_main_v44 (idx_main_v45 i) = ix1 (⟨(i 1).val, (i 1).isLt⟩ : Fin 64) :=
    funext fun a => match a with | ⟨0, _⟩ => rfl
  rw [hb]
  generalize val_main_v43 (F := Ideal) x0 x1 x2 i = a
  generalize x3 (ix1 (⟨(i 1).val, (i 1).isLt⟩ : Fin 64)) = b
  simp only [Ideal.ofBits_def, one_word]
  rfl

end Cert.ReferenceIdeal.RefValue

end
-- ==== Proof.LibRow.lean ====
/-
  A vector kept as one row.

  A length-`b` vector recast to the shape `[1, b]` (what a reshape of a bias vector to a single row is) keeps its
  entries in order: the row's entry at `(0, c)` is the vector's entry at `c`. Both have row-major position `c`.
  Stated for any extent and any element type; nothing here mentions a program.
-/
import Idealize.ShloMosaic.Lib.Pipeline.Value
import Idealize.ShloMosaic.Lib.ValueIdx

noncomputable section

namespace Idealize.ShloMosaic.RowOfVector

open Idealize.ShloMosaic Idealize.ShloMosaic.ValueIdx

/-- The cast `[b] → [1, b]` read at `(0, c)` is the vector at `c`. -/
theorem shapeCast_b_1b_apply {b : ℕ} {α : Type} (v : (⟨1, ![b]⟩ : Shape).Idx → α)
    (h : (⟨1, ![b]⟩ : Shape).ShapeCasts ⟨2, ![1, b]⟩) (c : Fin b) :
    shapeCast ⟨2, ![1, b]⟩ v h (ix2 (0 : Fin 1) c) = v (ix1 c) := by
  refine shapeCast_apply v h (ix2 (0 : Fin 1) c) (ix1 c) ?_
  rw [Shape.rowMajor_val_one, Shape.rowMajor_val_two]
  show c.val = 0 * b + c.val
  omega

end Idealize.ShloMosaic.RowOfVector

end
-- ==== Proof.Bridge.lean ====
/-
  The idealized kernel's result is the reference's last stage.

  After @main the result buffer holds what the second region leaves: `logistic (agg + bias row)` of the two arrays
  it finds (the epilogue region's value). Those two arrays are what the host operations between the regions make of
  the first region's result and of the arguments: the aggregated array is the reference's aggregation stage, because
  the first region's result is the reference's matrix product (both are the sum over the 128 hidden columns of
  `x (r, k) · w (k, j)`) and the operations in between are the reference's own; the bias row is the bias vector
  recast. Entry by entry that is the reference's result, `logistic (agg (r, j) + bias j)`. No step needs the inputs
  to be finite: the two sides are one function of the arguments on all extended reals.
-/
import proofs.«169735_j59442347377115_1_alg».proof.Proof.Gen.KernelIdeal.Frame
import proofs.«169735_j59442347377115_1_alg».proof.Proof.MatmulRegion
import proofs.«169735_j59442347377115_1_alg».proof.Proof.SigmoidRegion
import proofs.«169735_j59442347377115_1_alg».proof.Proof.HostGlue
import proofs.«169735_j59442347377115_1_alg».proof.Proof.RefSide
import proofs.«169735_j59442347377115_1_alg».proof.Proof.LibRow

set_option maxRecDepth 16384

noncomputable section

namespace Cert.Proof.Bridge

open Idealize.ShloMosaic Idealize.ShloMosaic.TcCoe Idealize.SL.Sem
open Idealize.ShloMosaic.ValueIdx
open Cert.KernelIdeal Cert.KernelIdeal.Gen

/-- The kernel's block-by-block product and the reference's one matrix product are the same array: both read, at
    `(r, j)`, the sum over `k` of `x (r, k) · w (k, j)`. -/
theorem product_eq (x0 : FVec Ideal S100000x128 .f32) (x2 : FVec Ideal S128x64 .f32) :
    Linear.rowsTimes x0 x2 = Cert.ReferenceIdeal.ReadP.val_main_v0 (F := Ideal) x0 x2 := by
  funext i
  refine Eq.trans ?_ (Cert.ReferenceIdeal.ReadP.val_main_v0_apply x0 x2 i).symm
  unfold Linear.rowsTimes
  refine Finset.sum_congr rfl fun k _ => ?_
  have el : Cert.ReferenceIdeal.ReadP.lidx_main_v0 i k = ix2 (⟨(i 0).val, (i 0).isLt⟩ : Fin 100000) k :=
    funext fun a => match a with | ⟨0, _⟩ => rfl | ⟨1, _⟩ => rfl
  have er : Cert.ReferenceIdeal.ReadP.ridx_main_v0 i k = ix2 k (⟨(i 1).val, (i 1).isLt⟩ : Fin 64) :=
    funext fun a => match a with | ⟨0, _⟩ => rfl | ⟨1, _⟩ => rfl
  rw [el, er]

/-- The epilogue over the recast bias vector, at an entry: the bias entry of the column. -/
theorem epilogue_at (A : FVec Ideal S100000x64 .f32) (bvec : FVec Ideal S64 .f32) (i : S100000x64.Idx) :
    Epilogue.biasLogistic A (shapeCast S1x64 bvec shapeCasts_S64_S1x64) i
      = FloatOps.logistic (F := Ideal) (φ := .f32) (FloatOps.addf (F := Ideal) (φ := .f32) (A i)
          (bvec (ix1 (⟨(i 1).val, (i 1).isLt⟩ : Fin 64)))) := by
  unfold Epilogue.biasLogistic
  rw [RowOfVector.shapeCast_b_1b_apply]

variable (m : (ℓ : Loc nD τ sig) → Buf (Elt Ideal) ℓ) (ρ : Dev nD → PrngReg)

/-- What the result buffer holds after @main, as the reference's last stage of the launch contents of the four
    arguments. -/
theorem kernel_out (c : Dev nD) :
    W5 m ρ c (Proc.devRef .tc main_v45)
      = Cert.ReferenceIdeal.ReadP.val_main_v52 (F := Ideal) (m ((c.tc : Thread nD τ).loc main_arg0)) (m ((c.tc : Thread nD τ).loc main_arg1))
          (m ((c.tc : Thread nD τ).loc main_arg2)) (m ((c.tc : Thread nD τ).loc main_arg3)) := by
  -- the first region's result, the edge list and the bias as the host operations find them
  have hprod : W1 m ρ c (Proc.devRef .tc main_v0)
      = Cert.ReferenceIdeal.ReadP.val_main_v0 (F := Ideal) (m ((c.tc : Thread nD τ).loc main_arg0)) (m ((c.tc : Thread nD τ).loc main_arg2)) :=
    (W1_arr m ρ c 2).trans ((Linear.result_eq (V0 m ρ) c).trans (product_eq _ _))
  have hedge : W1 m ρ c (Proc.devRef .tc main_arg1) = (m ((c.tc : Thread nD τ).loc main_arg1)) := W1_of_ne m ρ c main_arg1 (by decide)
  have hb : W1 m ρ c (Proc.devRef .tc main_arg3) = (m ((c.tc : Thread nD τ).loc main_arg3)) := W1_of_ne m ρ c main_arg3 (by decide)
  -- the two arrays the second region finds
  have hagg : V4 m ρ c main_v43
      = Cert.ReferenceIdeal.ReadP.val_main_v43 (F := Ideal) (m ((c.tc : Thread nD τ).loc main_arg0)) (m ((c.tc : Thread nD τ).loc main_arg1)) (m ((c.tc : Thread nD τ).loc main_arg2)) :=
    Glue.agg_chain (W1 m ρ c) _ _ _ hprod hedge
  have hbias : V4 m ρ c main_v44 = shapeCast S1x64 ((m ((c.tc : Thread nD τ).loc main_arg3)) : FVec Ideal S64 .f32) shapeCasts_S64_S1x64 :=
    (Glue.bias_chain (W1 m ρ c)).trans (congrArg (fun v : FVec Ideal S64 .f32 => shapeCast S1x64 v shapeCasts_S64_S1x64) hb)
  -- the second region's result over them, entry by entry
  refine (W5_arr m ρ c 2).trans ?_
  refine (Epilogue.result_eq (V4 m ρ) c).trans ?_
  refine (congrArg₂ Epilogue.biasLogistic hagg hbias).trans ?_
  funext i
  refine (epilogue_at _ _ i).trans ?_
  exact (Cert.ReferenceIdeal.RefValue.out_at _ _ _ _ i).symm

end Cert.Proof.Bridge

end
-- ==== Proof.lean ====
/-
  The certificate's claims for the graph-convolution layer with a sigmoid.

  The kernel program computes `h = x · w` in a first kernel region (twenty row blocks, the product on the matrix
  unit from operands cast to a narrower float format), normalises and aggregates `h` over the edges with self-loops
  by host operations, and adds the bias and applies the logistic function in a second kernel region (ten row
  blocks). The reference does the same with one host matrix product and the sigmoid spelt on the host as
  negate, exponential, add one, divide into one.

  * The three frames: the two kernel programs' are the generated frame certificates; the reference's is its
    generated run with the result dropped.
  * The idealization rewrote no operation, so there is nothing to preserve.
  * Equal results on the extended reals: the format casts are the identity and a product into a zero accumulator is
    the plain sum, so the first region's array is the reference's product; the host operations in between are the
    reference's own and are carried as one function; `1 / (1 + exp (-z))` is the logistic function at every
    extended real. The precondition is not used: the two programs are one function of their arguments.
-/
import proofs.«169735_j59442347377115_1_alg».proof.Defs
import proofs.«169735_j59442347377115_1_alg».proof.Proof.Gen.Kernel
import proofs.«169735_j59442347377115_1_alg».proof.Proof.Gen.Kernel.Frame
import proofs.«169735_j59442347377115_1_alg».proof.Proof.Gen.KernelIdeal
import proofs.«169735_j59442347377115_1_alg».proof.Proof.Gen.KernelIdeal.Frame
import proofs.«169735_j59442347377115_1_alg».proof.Proof.Gen.ReferenceIdeal
import proofs.«169735_j59442347377115_1_alg».proof.Proof.Gen.Pre_finite_inputs
import proofs.«169735_j59442347377115_1_alg».proof.Proof.KernelRun
import proofs.«169735_j59442347377115_1_alg».proof.Proof.RefRun
import proofs.«169735_j59442347377115_1_alg».proof.Proof.RefRead
import proofs.«169735_j59442347377115_1_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result at the reference's last stage of the arguments: the kernel's by the bridge over its
    run, the reference's by its own run read stage by stage, the arguments' agreement rewritten. -/
theorem algebraic : Cert.algebraic_KernelIdeal_ReferenceIdeal := by
  intro m ρ m' ρ' _ hagree
  refine ⟨fun c => Cert.ReferenceIdeal.ReadP.val_main_v52 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Proof.Bridge.kernel_out m ρ c), (h c).2⟩)
      (Cert.KernelIdeal.Out.run_out (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v52_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
